-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .local _ .vmem, ⟨0, _⟩ => ⟨S1024x4096, .f32⟩
  | .local _ .vmem, ⟨1, _⟩ => ⟨S1024x4096, .f32⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x4096_S1024x4096_0_0 : ∀ a, (![0, 0] : Fin 2 → Nat) a + S1024x4096.size a ≤ S1024x4096.size a
  h_S1024x4096 : 0 < S1024x4096.numel
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S1024x512_S1024x512_0_0 : ∀ a, (![0, 0] : Fin 2 → Nat) a + S1024x512.size a ≤ S1024x512.size a
  h_S1024x512 : 0 < S1024x512.numel
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .f32 = 32 ∨ (Rect.block (s := S4096x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .f32 = 32 ∨ (Rect.block (s := S4096x4096) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== Proof.MatProd.lean ====
/-
  The matrix product both programs compute, as one function of the two argument arrays, and the only
  algebra the comparison needs.

  For `a, b : [4096, 4096]` the entry `(r, c)` of the product is `∑ k < 4096, a[r, k] * b[k, c]` on the
  extended reals. Both operands are read through their extensions by zero to all pairs of naturals
  (`ext`), so that every index is a natural number and the statements about blocks are arithmetic:
  `partialDot a b r c n` is the sum of the first `n` terms, the product is `partialDot … 4096`.
  A sum over one whole contraction axis is `partialDot` at the axis' extent (`sum_fin_eq_partialDot`),
  and summing `w` further terms after the first `n` extends the partial sum (`partialDot_add`):
  addition of extended reals is commutative and associative, which is all that regrouping a sum by
  blocks of the contraction axis asks, so no finiteness is used.
-/
import Idealize.ShloMosaic.PureOps.Ideal
import Idealize.ShloMosaic.Lib.ValueIdx

noncomputable section

namespace Cert.MatProd

open Idealize.ShloMosaic Idealize.ShloMosaic.ValueIdx

/-- The shape of the three arrays. -/
abbrev Sq : Shape := ⟨2, ![4096, 4096]⟩

/-- An array read at a pair of naturals: its entry inside the array, zero outside. -/
def ext (a : Sq.Idx → EReal) (r k : ℕ) : EReal :=
  if h : r < 4096 ∧ k < 4096 then a (ix2 (⟨r, h.1⟩ : Fin 4096) (⟨k, h.2⟩ : Fin 4096)) else 0

/-- An entry of the array is its extension at the entry's coordinates. -/
theorem ext_of_val (a : Sq.Idx → EReal) (x : Sq.Idx) (r k : ℕ) (hr : (x 0).val = r) (hk : (x 1).val = k) :
    a x = ext a r k := by
  subst hr hk
  have h : (x 0).val < 4096 ∧ (x 1).val < 4096 := ⟨idx2_lt0 x, idx2_lt1 x⟩
  unfold ext
  rw [dif_pos h]
  exact congrArg a (funext fun d => match d with | ⟨0, _⟩ => rfl | ⟨1, _⟩ => rfl)

/-- The first `n` terms of entry `(r, c)` of the product. -/
def partialDot (a b : Sq.Idx → EReal) (r c n : ℕ) : EReal :=
  ∑ k ∈ Finset.range n, ext a r k * ext b k c

/-- The product: entry `(r, c)` is the sum of all 4096 terms. -/
def prod (a b : Sq.Idx → EReal) : Sq.Idx → EReal :=
  fun i => partialDot a b (i 0).val (i 1).val 4096

/-- A sum over `Fin n` of the terms is the partial sum at `n`. -/
theorem sum_fin_eq_partialDot (a b : Sq.Idx → EReal) (r c n : ℕ) :
    ∑ k : Fin n, ext a r k.val * ext b k.val c = partialDot a b r c n :=
  Fin.sum_univ_eq_sum_range (fun k => ext a r k * ext b k c) n

/-- The partial sum at `n + w` is the partial sum at `n` plus the next `w` terms. -/
theorem partialDot_add (a b : Sq.Idx → EReal) (r c n w : ℕ) :
    partialDot a b r c n + ∑ k : Fin w, ext a r (n + k.val) * ext b (n + k.val) c = partialDot a b r c (n + w) := by
  unfold partialDot
  rw [Finset.sum_range_add, Fin.sum_univ_eq_sum_range (fun k => ext a r (n + k) * ext b (n + k) c) w]

/-- The partial sum of no terms is zero. -/
theorem partialDot_zero (a b : Sq.Idx → EReal) (r c : ℕ) : partialDot a b r c 0 = 0 := by
  unfold partialDot; rw [Finset.range_zero, Finset.sum_empty]

end Cert.MatProd

end
-- ==== Proof.KernelValue.lean ====
/-
  The kernel's result array at the ideal values is the matrix product of its two argument arrays.

  The grid is 4 × 8; at the point `(i, j)` the body multiplies rows `1024 i …` of the left array, all 4096
  columns, by all 4096 rows of the right array at columns `512 j …`, into a zero accumulator, and stores the
  `1024 × 512` result, which is written back to block `(i, j)` of the result array. A change of float format
  is the identity at the ideal values, and the matrix unit's product into a zero accumulator is the sum over
  the contracted axis of the products of the operands' entries: entry `(p, q)` of the stored block is the sum
  over all `k < 4096` of `a[1024 i + p, k] * b[k, 512 j + q]`, which is entry `(1024 i + p, 512 j + q)` of
  the product. The 32 blocks tile the result array, so the array ends holding the product.
-/
import proofs.«102086_g2000606709147281_pallasbulk_819_4_alg».proof.Proof.Gen.KernelIdeal.Value
import proofs.«102086_g2000606709147281_pallasbulk_819_4_alg».proof.Proof.MatProd
import Idealize.ShloMosaic.PureOps.Ideal.Laws
import Idealize.ShloMosaic.Lib.ValueIdx
import Idealize.ShloMosaic.Lib.Pipeline.Value

noncomputable section

namespace Cert.KernelIdeal.MatValue

open Cert.KernelIdeal Cert.KernelIdeal.Gen Cert.KernelIdeal.Value Cert.MatProd
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The operands' indices of the body's matrix product -/

/-- The left operand is read at the result's row, -/
theorem lhs_0 (i : S1024x512.Idx) (q : dot_S1024x4096_S4096x512_S1024x512_1_0_0_1_n_n.contr.Idx) :
    (dot_S1024x4096_S4096x512_S1024x512_1_0_0_1_n_n.lhsIdx i q 0).val = (i 0).val := by
  unfold DotDims.lhsIdx
  rw [dif_neg (show ¬(0 : Fin S1024x4096.rank) ∈ dot_S1024x4096_S4096x512_S1024x512_1_0_0_1_n_n.lhsBatch by decide),
    dif_pos (show (0 : Fin S1024x4096.rank) ∈ dot_S1024x4096_S4096x512_S1024x512_1_0_0_1_n_n.lhsNonContracting by decide)]
  rfl
/-- and at the contraction position; -/
theorem lhs_1 (i : S1024x512.Idx) (q : dot_S1024x4096_S4096x512_S1024x512_1_0_0_1_n_n.contr.Idx) :
    (dot_S1024x4096_S4096x512_S1024x512_1_0_0_1_n_n.lhsIdx i q 1).val = (q ⟨0, by decide⟩).val :=
  dot_S1024x4096_S4096x512_S1024x512_1_0_0_1_n_n.lhsIdx_val_of_single rfl i q
/-- the right operand at the contraction position -/
theorem rhs_0 (i : S1024x512.Idx) (q : dot_S1024x4096_S4096x512_S1024x512_1_0_0_1_n_n.contr.Idx) :
    (dot_S1024x4096_S4096x512_S1024x512_1_0_0_1_n_n.rhsIdx i q 0).val = (q ⟨0, by decide⟩).val :=
  dot_S1024x4096_S4096x512_S1024x512_1_0_0_1_n_n.rhsIdx_val_of_single rfl i q
/-- and at the result's column. -/
theorem rhs_1 (i : S1024x512.Idx) (q : dot_S1024x4096_S4096x512_S1024x512_1_0_0_1_n_n.contr.Idx) :
    (dot_S1024x4096_S4096x512_S1024x512_1_0_0_1_n_n.rhsIdx i q 1).val = (i 1).val := by
  unfold DotDims.rhsIdx
  rw [dif_neg (show ¬(1 : Fin S4096x512.rank) ∈ dot_S1024x4096_S4096x512_S1024x512_1_0_0_1_n_n.rhsBatch by decide),
    dif_pos (show (1 : Fin S4096x512.rank) ∈ dot_S1024x4096_S4096x512_S1024x512_1_0_0_1_n_n.rhsNonContracting by decide)]
  rfl

/-! ## The body's stored value at an index -/

/-- If row `y 0` of the left block is row `r` of `a` and column `y 1` of the right block is column `c` of `b`,
    entry `y` of the body's product is the sum of all 4096 terms of entry `(r, c)` of the product of `a` and `b`. -/
theorem pay_apply (x0 : Vec Ideal S1024x4096 .f32) (x1 : Vec Ideal S4096x512 .f32) (a b : Sq.Idx → EReal) (r c : ℕ)
    (y : S1024x512.Idx)
    (h0 : ∀ z : S1024x4096.Idx, (z 0).val = (y 0).val → x0 z = ext a r (z 1).val)
    (h1 : ∀ z : S4096x512.Idx, (z 1).val = (y 1).val → x1 z = ext b (z 0).val c) :
    k0_pay1 (F := Ideal) x0 x1 y = partialDot a b r c 4096 := by
  unfold k0_pay1
  refine (Ideal.matmul_constant_zero_apply dot_S1024x4096_S4096x512_S1024x512_1_0_0_1_n_n none _ _ y).trans ?_
  rw [← Equiv.sum_comp (contrEquiv1 dot_S1024x4096_S4096x512_S1024x512_1_0_0_1_n_n 4096 rfl rfl).symm]
  refine (Finset.sum_congr rfl fun k _ => ?_).trans (sum_fin_eq_partialDot a b r c 4096)
  have hk := contrEquiv1_symm_val dot_S1024x4096_S4096x512_S1024x512_1_0_0_1_n_n 4096 rfl rfl k
  rw [truncf_apply, truncf_apply, h0 _ (lhs_0 _ _), h1 _ (rhs_1 _ _), (lhs_1 _ _).trans hk, (rhs_0 _ _).trans hk]

/-! ## From the blocks to the array -/

theorem hz : (![0, 0] : Fin 2 → Nat) = fun _ => 0 := funext fun a => by fin_cases a <;> rfl

/-- The index maps over the grid: the left window moves with the output's rows and stays at column block 0, the
    right window stays at row block 0 and moves with the output's columns; the output's block indices are in range. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 3 ∧ win0_2.index t (1 : Fin 2) ≤ 7 :=
  (by decide +kernel : ∀ t : Fin grid0.N, _)

/-- Every block of the result array is some point's. -/
theorem idx_onto : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

/-- What point `t` writes back is block `t` of the product of the argument arrays. -/
theorem flushed_eq (c : Dev nD) (t : Fin cfg0.N) :
    (dats m 0 c).flushed 2 t
      = ((cfg0.win 2).blk t).view.read (Elt Ideal) (prod (V m c main_arg0) (V m c main_arg1)) := by
  rw [flushed2]
  unfold out0_2
  rw [View.canon_unit_zero hz]
  simp only [View.ld_unit_zero (S := S1024x4096) hz, View.ld_unit_zero (S := S4096x512) hz]
  obtain ⟨e0, e1, e2, e3, -, -⟩ := idx_facts t
  funext y
  show k0_pay1 (F := Ideal) (iblk m c 0 t) (iblk m c 1 t) y
    = partialDot (V m c main_arg0) (V m c main_arg1) ((((cfg0.win 2).blk t).view.emb y) 0).val ((((cfg0.win 2).blk t).view.emb y) 1).val 4096
  refine pay_apply (iblk m c 0 t) (iblk m c 1 t) (V m c main_arg0) (V m c main_arg1) _ _ y (fun z hz0 => ?_) (fun z hz1 => ?_)
  · show V m c main_arg0 (((cfg0.win 0).blk t).view.emb z) = _
    refine ext_of_val _ _ _ _ ?_ ?_
    · show win0_0.index t (0 : Fin 2) * 1024 + 1 * (z 0).val = win0_2.index t (0 : Fin 2) * 1024 + 1 * (y 0).val
      rw [e0, hz0]
    · show win0_0.index t (1 : Fin 2) * 4096 + 1 * (z 1).val = (z 1).val
      rw [e1]; omega
  · show V m c main_arg1 (((cfg0.win 1).blk t).view.emb z) = _
    refine ext_of_val _ _ _ _ ?_ ?_
    · show win0_1.index t (0 : Fin 2) * 4096 + 1 * (z 0).val = (z 0).val
      rw [e2]; omega
    · show win0_1.index t (1 : Fin 2) * 512 + 1 * (z 1).val = win0_2.index t (1 : Fin 2) * 512 + 1 * (y 1).val
      rw [e3, hz1]

/-- An index of the array is in point `t`'s block iff each coordinate is in the block's range on its axis. -/
theorem mem_blk (t : Fin cfg0.N) (i : S4096x4096.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- The blocks tile the result array: the point that covers `(r, c)` is the one at block `(r / 1024, c / 512)`. -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- The result array after the run is the product of the argument arrays. -/
theorem final (c : Dev nD) :
    (dats m 0 c).arrAt 2 cfg0.N = prod (m ((c : Thread nD τ).loc main_arg0)) (m ((c : Thread nD τ).loc main_arg1)) :=
  (dats m 0 c).arrAt_eq_of_cover 2 _ (fun t _ => flushed_eq m c t) cover

/-- The run: the result array at the product of the arguments, the arguments unchanged. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.MatValue

end
-- ==== Proof.RefBody.lean ====
/-
  The reference program's one kernel, run at every grid point.

  The grid is 8 × 8 × 8, the last axis the contraction's blocks. At a point `(i, j, k)` the body multiplies the
  `512 × 512` block `(i, k)` of the left array by the block `(k, j)` of the right one; at `k = 0` it stores that
  product into the output's buffer (`resetBlock`), at `k > 0` it adds it to what the buffer holds (`accBlock`). The
  buffer is written back to block `(i, j)` of the result after `k = 7` only, so between two write-backs it carries
  the running sum: `outsAt` is that running contents by recursion on the point. With these as proof data the
  pipeline's frame theorem gives the run, the argument arrays unchanged, and the result array as the library
  computes it from what the body leaves at the points that write back.
-/
import proofs.«102086_g2000606709147281_pallasbulk_819_4_alg».proof.Proof.Gen.ReferenceIdeal.Frame
import proofs.«102086_g2000606709147281_pallasbulk_819_4_alg».proof.Proof.Gen.ReferenceIdeal.Skeleton

set_option maxRecDepth 16384

noncomputable section

namespace Cert.ReferenceIdeal.Body

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branch a point takes -/

/-- The first branch (`k = 0`) is taken exactly at the points whose position is a multiple of 8. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second branch (`k > 0`) is taken exactly at the other points. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- One of the two branches stores into the output's buffer at every grid coordinate: `k = 0` or `k > 0`. -/
theorem live2 (i : grid0.Coords) : cfg0.idle 2 i = false := by
  have key : ∀ k : Fin 8,
      (!(Scalar.cmpi .ne (Scalar.extui (Scalar.cmpi .eq (BitVec.ofNat 32 k.val) 0#32) : BitVec 32) 0#32 == 1#1)
        && !(Scalar.cmpi .ne (Scalar.extui (Scalar.cmpi .sgt (BitVec.ofNat 32 k.val) 0#32) : BitVec 32) 0#32 == 1#1)) = false := by
    decide +kernel
  exact key (i 2)

/-! ## What the body leaves in the output's buffer -/

/-- The whole `512 × 512` block, as the rectangle every load and store of the body goes through. -/
abbrev rB : Rect S512x512 := Rect.unit (s := S512x512) ![0, 0] S512x512.size inb_S512x512_S512x512_0_0

/-- At `k = 0`: the product of the two input blocks. -/
def resetBlock (x0 x1 : Vec F S512x512 .f32) : Vec F S512x512 .f32 :=
  View.canon [⟨rB, k0_pay1 (View.ld x0 rB) (View.ld x1 rB)⟩]

/-- At `k > 0`: what the buffer held plus the product of the two input blocks. -/
def accBlock (x0 x1 xo : Vec F S512x512 .f32) : Vec F S512x512 .f32 :=
  View.canon [⟨rB, k0_pay2 (View.ld x0 rB) (View.ld x1 rB) (View.ld xo rB)⟩]

/-- The one store covers the buffer. -/
theorem cover2 (p0 : Vec F S512x512 .f32) (y : S512x512.Idx) :
    ∃ pc ∈ ([⟨rB, p0⟩] : List (View.Piece (Elt F) S512x512 .f32)), y ∈ pc.1.set :=
  View.cover_of_tiled [⟨rB, p0⟩] S512x512.size (by rfl) y

/-! ## The body's triple, branch by branch -/

set_option maxHeartbeats 1000000 in
/-- At a coordinate with `k = 0` the body, on whole buffers holding the two input blocks and anything in the
    output's, ends with the inputs as they were and the output's buffer at `resetBlock`. -/
theorem sound_reset (c : Dev nD) (E : Set ℕ) (i : grid0.Coords)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole)
    (hc1 : k0_cond1 i = 1#1) (hc2 : ¬ k0_cond2 i = 1#1)
    (x0 x1 : Vec F S512x512 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (resetBlock x0 x1)) -∗ K ⟨⟩))
      ⊢ wp frame (wpE (defs₀ (F := F)) Variants.none c none) E (cc0__mm_kernel_acc_in_out i arg3 harg3 arg4 harg4 arg5 harg5) K := by
  simp only [cc0__mm_kernel_acc_in_out_eq_skeleton]; unfold cc0__mm_kernel_acc_in_out_skel
  unfold owns
  iintro ⟨⟨%f0, %hf0, H0⟩, ⟨%f1, %hf1, H1⟩, ⟨%d2, %f2, -, H2⟩, Hk⟩
  subst hf0 hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

set_option maxHeartbeats 1000000 in
/-- At a coordinate with `k > 0` the body, on whole buffers holding the two input blocks and `xo` in the
    output's, ends with the inputs as they were and the output's buffer at `accBlock` of them and `xo`. -/
theorem sound_acc (c : Dev nD) (E : Set ℕ) (i : grid0.Coords)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole)
    (hc1 : ¬ k0_cond1 i = 1#1) (hc2 : k0_cond2 i = 1#1)
    (x0 x1 xo : Vec F S512x512 .f32) (K : PUnit → sProp 𝕄) :
    iprop(owns (c : Thread nD τ) arg3 fullShare x0 ∗ owns (c : Thread nD τ) arg4 fullShare x1 ∗ owns (c : Thread nD τ) arg5 fullShare xo
        ∗ (iprop(owns (c : Thread nD τ) arg3 fullShare x0 ∗ owns (c : Thread nD τ) arg4 fullShare x1
            ∗ owns (c : Thread nD τ) arg5 fullShare (accBlock x0 x1 xo)) -∗ K ⟨⟩))
      ⊢ wp frame (wpE (defs₀ (F := F)) Variants.none c none) E (cc0__mm_kernel_acc_in_out i arg3 harg3 arg4 harg4 arg5 harg5) K := by
  simp only [cc0__mm_kernel_acc_in_out_eq_skeleton]; unfold cc0__mm_kernel_acc_in_out_skel
  unfold owns
  iintro ⟨⟨%f0, %hf0, H0⟩, ⟨%f1, %hf1, H1⟩, ⟨%f2, %hf2, H2⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## What the output's buffer holds after each point -/

/-- The running contents of the output's buffer after the body at position `n`: the product of the point's
    input blocks where a new output block starts (`n` a multiple of 8), else that product added to what the
    point before left. -/
def outsAt (c : Dev nD) : (n : ℕ) → n < cfg0.N → Vec F S512x512 .f32
  | 0, hn => resetBlock (iblk m c 0 ⟨0, hn⟩) (iblk m c 1 ⟨0, hn⟩)
  | n + 1, hn =>
    if (n + 1) % 8 = 0 then
      resetBlock (iblk m c 0 ⟨n + 1, hn⟩) (iblk m c 1 ⟨n + 1, hn⟩)
    else
      accBlock (iblk m c 0 ⟨n + 1, hn⟩) (iblk m c 1 ⟨n + 1, hn⟩) (outsAt c n (Nat.lt_of_succ_lt hn))

/-- At a point that starts an output block. -/
theorem outsAt_reset (c : Dev nD) (t : Fin cfg0.N) (h0 : t.val % 8 = 0) :
    outsAt m c t.val t.isLt = resetBlock (iblk m c 0 t) (iblk m c 1 t) := by
  obtain ⟨n, hn⟩ := t
  cases n with
  | zero => exact rfl
  | succ n => exact (if_pos h0).trans rfl

/-- At a point that continues one: over what the point before left. -/
theorem outsAt_acc (c : Dev nD) (t : Fin cfg0.N) (h0 : ¬ t.val % 8 = 0) :
    outsAt m c t.val t.isLt
      = accBlock (iblk m c 0 t) (iblk m c 1 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The arrays as the region finds them; after the body at point `t` each input's buffer at its block and the
    output's at the running contents; nothing else held or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outsAt m c t.val t.isLt := by dsimp only [dats]

/-- Each input's buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a point that continues an output block the output's buffer holds what the point before left: the point
    is not the first, the buffer was not written back in between (that happens after positions ≡ 7 mod 8 only),
    and the window is live and uncut. -/
theorem before2_acc (c : Dev nD) (t : Fin cfg0.N) (h0 : ¬ t.val % 8 = 0) (d) :
    (dats m 0 c).before 2 t d = outsAt m c (t.val - 1) (Nat.lt_of_le_of_lt (Nat.sub_le _ _) t.isLt) := by
  have hN : t.val < 512 := lt_of_lt_of_eq t.isLt (show cfg0.N = 512 from N_0)
  rw [Dat.before_out_kept _ 2 rfl t (by omega) (Bool.eq_false_iff.mpr fun h => by have := (flush0_2 _).mp h; dsimp only at this; omega)
    live2 (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns (the output's buffer as the library states it for a window that may be idle). -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (dats m 0 c).leavesExact 2 t)

/-- The output's window is live at every point, so the body hands its buffer back at `after`. -/
theorem leaves2 (c : Dev nD) (t : Fin cfg0.N) :
    (dats m 0 c).leavesExact 2 t = owns (c : Thread nD τ) (st0_2 t) fullShare ((dats m 0 c).after 2 t) := by
  unfold Dat.leavesExact
  rw [live2 (cfg0.grid.coords t)]

set_option maxHeartbeats 800000 in
/-- The body at any point: the inputs' buffers hold their blocks; the position says which branch runs; at a
    continuing point the output's buffer holds the running contents of the point before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [leaves2,
    show (dats m 0 c).Φ t.succ = (dats m 0 c).Φ t.castSucc from rfl,
    show (dats m 0 c).owesAt () t.succ = (dats m 0 c).owesAt () t.castSucc from rfl,
    after0, after1, after2]
  by_cases h0 : t.val % 8 = 0
  · rw [outsAt_reset m c t h0]
    iintro ⟨HΦ, Ho, ⟨%d0, H0⟩, ⟨%d1, H1⟩, ⟨%d2, H2⟩⟩
    iapply (sound_reset c Set.univ (grid0.coords t) _ _ _ _ _ _ ((hcond1 t).mpr h0) (fun h => ((hcond2 t).mp h) h0)
      (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt_acc m c t h0]
    simp only [before2_acc m c t h0]
    iintro ⟨HΦ, Ho, ⟨%d0, H0⟩, ⟨%d1, H1⟩, ⟨%d2, H2⟩⟩
    iapply (sound_acc c Set.univ (grid0.coords t) _ _ _ _ _ _ (fun h => h0 ((hcond1 t).mp h)) ((hcond2 t).mpr h0)
      (iblk m c 0 t) (iblk m c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, the result array at what the library computes from the
    running contents at the points that write back, every other array as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.ReferenceIdeal.Body

end
-- ==== Proof.RefValue.lean ====
/-
  The reference's result array at the ideal values is the matrix product of its two argument arrays.

  Position `n` of the 8 × 8 × 8 grid is the point `(n / 64, n / 8 % 8, n % 8)`: it reads block
  `(n / 64, n % 8)` of the left array and block `(n % 8, n / 8 % 8)` of the right one, and works on block
  `(n / 64, n / 8 % 8)` of the result. The body's product of the two input blocks at entry `(p, q)` is the sum
  of the 512 terms `k = 512 (n % 8) …` of entry `(512 (n / 64) + p, 512 (n / 8 % 8) + q)` of the whole product.
  So the running contents of the output's buffer after position `n` are the first `512 (n % 8 + 1)` terms of
  that entry (`running`, by induction on the position: a reset starts the sum, an accumulating point extends
  the sum the point before left, which belongs to the same output block). The buffer is written back after
  the positions with `n % 8 = 7`, when all 4096 terms are in; those 64 blocks tile the result array.
-/
import proofs.«102086_g2000606709147281_pallasbulk_819_4_alg».proof.Proof.RefBody
import proofs.«102086_g2000606709147281_pallasbulk_819_4_alg».proof.Proof.MatProd
import Idealize.ShloMosaic.PureOps.Ideal.Laws
import Idealize.ShloMosaic.Lib.ValueIdx
import Idealize.ShloMosaic.Lib.Pipeline.Value

noncomputable section

namespace Cert.ReferenceIdeal.MatValue

open Cert.ReferenceIdeal Cert.ReferenceIdeal.Gen Cert.ReferenceIdeal.Body Cert.MatProd
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The operands' indices of the body's matrix product -/

/-- The left operand is read at the result's row, -/
theorem lhs_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
/-- and at the contraction position; -/
theorem lhs_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
/-- the right operand at the contraction position -/
theorem rhs_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
/-- and at the result's column. -/
theorem rhs_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-! ## The body's two stored values at an index -/

/-- If row `y 0` of the left block is row `r` of `a` at columns `n …` and column `y 1` of the right block is
    column `c` of `b` at rows `n …`, entry `y` of the blocks' product is the sum of the 512 terms `k = n …` of
    entry `(r, c)` of the product of `a` and `b`. -/
theorem pay1_apply (x0 x1 : Vec Ideal S512x512 .f32) (a b : Sq.Idx → EReal) (r c n : ℕ) (y : S512x512.Idx)
    (h0 : ∀ z : S512x512.Idx, (z 0).val = (y 0).val → x0 z = ext a r (n + (z 1).val))
    (h1 : ∀ z : S512x512.Idx, (z 1).val = (y 1).val → x1 z = ext b (n + (z 0).val) c) :
    k0_pay1 (F := Ideal) x0 x1 y = ∑ k : Fin 512, ext a r (n + k.val) * ext b (n + k.val) c := by
  unfold k0_pay1
  refine (Ideal.matmul_constant_zero_apply dot_S512x512_S512x512_S512x512_1_0_0_1_n_n (some .fp32) _ _ y).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  rw [h0 _ (lhs_0 _ _), h1 _ (rhs_1 _ _), (lhs_1 _ _).trans hk, (rhs_0 _ _).trans hk]

/-- The accumulating store adds that to what the buffer held. -/
theorem pay2_apply (x0 x1 xo : Vec Ideal S512x512 .f32) (y : S512x512.Idx) :
    k0_pay2 (F := Ideal) x0 x1 xo y = xo y + k0_pay1 (F := Ideal) x0 x1 y := by
  unfold k0_pay2
  rw [addf_apply, shapeCast_self]

theorem hz : (![0, 0] : Fin 2 → Nat) = fun _ => 0 := funext fun a => by fin_cases a <;> rfl

/-- What a reset leaves is the blocks' product, -/
theorem resetBlock_eq (x0 x1 : Vec Ideal S512x512 .f32) : resetBlock (F := Ideal) x0 x1 = k0_pay1 (F := Ideal) x0 x1 := by
  unfold resetBlock
  rw [View.canon_unit_zero hz]
  simp only [View.ld_unit_zero (S := S512x512) hz]

/-- and what an accumulating point leaves is the accumulating store's value. -/
theorem accBlock_eq (x0 x1 xo : Vec Ideal S512x512 .f32) : accBlock (F := Ideal) x0 x1 xo = k0_pay2 (F := Ideal) x0 x1 xo := by
  unfold accBlock
  rw [View.canon_unit_zero hz]
  simp only [View.ld_unit_zero (S := S512x512) hz]

/-! ## The running sum -/

/-- The index maps in closed form over the grid's positions. -/
theorem idx_closed : ∀ t : Fin cfg0.N, win0_0.index t (0 : Fin 2) = t.val / 64
    ∧ win0_0.index t (1 : Fin 2) = t.val % 8
    ∧ win0_1.index t (0 : Fin 2) = t.val % 8
    ∧ win0_1.index t (1 : Fin 2) = t.val / 8 % 8
    ∧ win0_2.index t (0 : Fin 2) = t.val / 64
    ∧ win0_2.index t (1 : Fin 2) = t.val / 8 % 8 :=
  (by decide +kernel : ∀ t : Fin grid0.N, _)

/-- At position `n` the blocks' product at entry `y` is the 512 terms `k = 512 (n % 8) …` of entry
    `(512 (n / 64) + y 0, 512 (n / 8 % 8) + y 1)` of the product of the argument arrays. -/
theorem blockProd (c : Dev nD) (n : ℕ) (hn : n < cfg0.N) (y : S512x512.Idx) :
    k0_pay1 (F := Ideal) (iblk m c 0 ⟨n, hn⟩) (iblk m c 1 ⟨n, hn⟩) y
      = ∑ k : Fin 512, ext (V m c main_arg0) (n / 64 * 512 + (y 0).val) (n % 8 * 512 + k.val)
          * ext (V m c main_arg1) (n % 8 * 512 + k.val) (n / 8 % 8 * 512 + (y 1).val) := by
  obtain ⟨e0, e1, e2, e3, -, -⟩ := idx_closed ⟨n, hn⟩
  refine pay1_apply (iblk m c 0 ⟨n, hn⟩) (iblk m c 1 ⟨n, hn⟩) (V m c main_arg0) (V m c main_arg1) _ _ _ y (fun z hz0 => ?_) (fun z hz1 => ?_)
  · show V m c main_arg0 (((cfg0.win 0).blk ⟨n, hn⟩).view.emb z) = _
    refine ext_of_val _ _ _ _ ?_ ?_
    · show win0_0.index ⟨n, hn⟩ (0 : Fin 2) * 512 + 1 * (z 0).val = n / 64 * 512 + (y 0).val
      rw [e0, hz0]; show n / 64 * 512 + 1 * (y 0).val = _; omega
    · show win0_0.index ⟨n, hn⟩ (1 : Fin 2) * 512 + 1 * (z 1).val = n % 8 * 512 + (z 1).val
      rw [e1]; show n % 8 * 512 + 1 * (z 1).val = _; omega
  · show V m c main_arg1 (((cfg0.win 1).blk ⟨n, hn⟩).view.emb z) = _
    refine ext_of_val _ _ _ _ ?_ ?_
    · show win0_1.index ⟨n, hn⟩ (0 : Fin 2) * 512 + 1 * (z 0).val = n % 8 * 512 + (z 0).val
      rw [e2]; show n % 8 * 512 + 1 * (z 0).val = _; omega
    · show win0_1.index ⟨n, hn⟩ (1 : Fin 2) * 512 + 1 * (z 1).val = n / 8 % 8 * 512 + (y 1).val
      rw [e3, hz1]; show n / 8 % 8 * 512 + 1 * (y 1).val = _; omega

/-- The first block of terms is the partial sum at 512. -/
theorem first_block (a b : Sq.Idx → EReal) (r c kb : ℕ) (h : kb = 0) :
    ∑ k : Fin 512, ext a r (kb * 512 + k.val) * ext b (kb * 512 + k.val) c = partialDot a b r c ((kb + 1) * 512) := by
  subst h
  have e := partialDot_add a b r c 0 512
  rw [partialDot_zero, zero_add] at e
  simp only [Nat.zero_mul, Nat.zero_add, Nat.one_mul] at e ⊢
  exact e

/-- THE RUNNING SUM. After position `n` the output's buffer holds, at entry `y`, the first `512 (n % 8 + 1)` terms
    of entry `(512 (n / 64) + y 0, 512 (n / 8 % 8) + y 1)` of the product of the argument arrays. -/
theorem running (c : Dev nD) : ∀ (n : ℕ) (hn : n < cfg0.N) (y : S512x512.Idx),
    outsAt m c n hn y
      = partialDot (V m c main_arg0) (V m c main_arg1) (n / 64 * 512 + (y 0).val) (n / 8 % 8 * 512 + (y 1).val) ((n % 8 + 1) * 512) := by
  intro n
  induction n with
  | zero =>
    intro hn y
    rw [outsAt_reset m c ⟨0, hn⟩ rfl, resetBlock_eq, blockProd]
    exact first_block _ _ _ _ (0 % 8) rfl
  | succ n ih =>
    intro hn y
    by_cases h0 : (n + 1) % 8 = 0
    · rw [outsAt_reset m c ⟨n + 1, hn⟩ h0, resetBlock_eq, blockProd]
      exact first_block _ _ _ _ ((n + 1) % 8) h0
    · rw [outsAt_acc m c ⟨n + 1, hn⟩ h0, accBlock_eq, pay2_apply, blockProd]
      show outsAt m c n _ y + _ = _
      rw [ih (Nat.lt_of_succ_lt hn) y]
      have a0 : n / 64 = (n + 1) / 64 := by omega
      have a1 : n / 8 % 8 = (n + 1) / 8 % 8 := by omega
      have a2 : (n % 8 + 1) * 512 = (n + 1) % 8 * 512 := by omega
      have a3 : ((n + 1) % 8 + 1) * 512 = (n + 1) % 8 * 512 + 512 := by omega
      rw [a0, a1, a2, a3]
      exact partialDot_add _ _ _ _ _ 512

/-! ## From the blocks to the array -/

/-- What a point that writes back writes is its block of the product of the argument arrays: all 4096 terms are in. -/
theorem flushed_eq (c : Dev nD) (t : Fin cfg0.N) (hf : (cfg0.win 2).flush t = true) :
    (dats m 0 c).flushed 2 t
      = ((cfg0.win 2).blk t).view.read (Elt Ideal) (prod (V m c main_arg0) (V m c main_arg1)) := by
  have h7 : t.val % 8 = 7 := (flush0_2 t).mp hf
  obtain ⟨-, -, -, -, e4, e5⟩ := idx_closed t
  show (cfg0.win 2).cut (grid0.coords t) ((dats m 0 c).after 2 t) = _
  rw [after2]
  funext y
  show outsAt m c t.val t.isLt y
    = partialDot (V m c main_arg0) (V m c main_arg1) ((((cfg0.win 2).blk t).view.emb y) 0).val ((((cfg0.win 2).blk t).view.emb y) 1).val 4096
  rw [running m c t.val t.isLt y]
  have b0 : ((((cfg0.win 2).blk t).view.emb y) 0).val = t.val / 64 * 512 + (y 0).val := by
    show win0_2.index t (0 : Fin 2) * 512 + 1 * (y 0).val = _
    rw [e4]; omega
  have b1 : ((((cfg0.win 2).blk t).view.emb y) 1).val = t.val / 8 % 8 * 512 + (y 1).val := by
    show win0_2.index t (1 : Fin 2) * 512 + 1 * (y 1).val = _
    rw [e5]; omega
  have b2 : (t.val % 8 + 1) * 512 = 4096 := by omega
  rw [b0, b1, b2]

/-- An index of the array is in point `t`'s block iff each coordinate is in the block's range on its axis. -/
theorem mem_blk (t : Fin cfg0.N) (i : S4096x4096.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- The blocks written back tile the result array: entry `(r, c)` is covered by the write-back after position
    `64 (r / 512) + 8 (c / 512) + 7`. -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 512 := N_0
  let t : Fin cfg0.N := ⟨(i 0).val / 512 * 64 + (i 1).val / 512 * 8 + 7, by rw [hN]; omega⟩
  have tv : t.val = (i 0).val / 512 * 64 + (i 1).val / 512 * 8 + 7 := rfl
  obtain ⟨-, -, -, -, e4, e5⟩ := idx_closed t
  refine ⟨t, (flush0_2 t).mpr (by omega), ?_⟩
  rw [mem_blk]
  intro a
  match a with
  | ⟨0, _⟩ => show win0_2.index t (0 : Fin 2) * 512 ≤ (i 0).val ∧ (i 0).val < win0_2.index t (0 : Fin 2) * 512 + 512; rw [e4]; omega
  | ⟨1, _⟩ => show win0_2.index t (1 : Fin 2) * 512 ≤ (i 1).val ∧ (i 1).val < win0_2.index t (1 : Fin 2) * 512 + 512; rw [e5]; omega

/-- The result array after the run is the product of the argument arrays. -/
theorem final (c : Dev nD) :
    (dats m 0 c).arrAt 2 cfg0.N = prod (m ((c : Thread nD τ).loc main_arg0)) (m ((c : Thread nD τ).loc main_arg1)) :=
  (dats m 0 c).arrAt_eq_of_cover 2 _ (fun t hf => flushed_eq m c t hf) cover

/-- The run: the result array at the product of the arguments, the arguments unchanged. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.ReferenceIdeal.MatValue

end
-- ==== Proof.lean ====
/-
  The certificate: the kernel, a single matrix product per output block over the whole contraction axis, against
  the reference, which walks the contraction axis in eight blocks and accumulates into its output block.

  At the ideal values both result arrays are the matrix product of the two argument arrays, entry `(r, c)` the
  sum over `k < 4096` of `a[r, k] * b[k, c]` on the extended reals: the kernel's because each of its 32 output
  blocks is that sum computed at once (a change of float format is the identity there), the reference's because
  the running contents of its output buffer are the partial sums of the same terms in the same order, block of
  512 by block of 512. Regrouping a sum needs only that addition is commutative and associative, so the
  precondition (finite inputs) is not used. The three frames are the generated ones for the kernel's two readings
  and the run of the reference's own kernel for the reference; the idealization rewrote nothing.
-/
import proofs.«102086_g2000606709147281_pallasbulk_819_4_alg».proof.Defs
import proofs.«102086_g2000606709147281_pallasbulk_819_4_alg».proof.Proof.Gen.Kernel.Frame
import proofs.«102086_g2000606709147281_pallasbulk_819_4_alg».proof.Proof.Gen.KernelIdeal.Frame
import proofs.«102086_g2000606709147281_pallasbulk_819_4_alg».proof.Proof.Gen.Pre_finite_inputs
import proofs.«102086_g2000606709147281_pallasbulk_819_4_alg».proof.Proof.KernelValue
import proofs.«102086_g2000606709147281_pallasbulk_819_4_alg».proof.Proof.RefBody
import proofs.«102086_g2000606709147281_pallasbulk_819_4_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Body.frame (F := Ideal) m ρ

/-- Both programs end with the product of their argument arrays, and the argument arrays agree. -/
theorem algebraic : Cert.algebraic_KernelIdeal_ReferenceIdeal := by
  intro m ρ m' ρ' _ hagree
  refine ⟨fun c => Cert.MatProd.prod (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.MatValue.run m ρ, ?_⟩
  refine (θ_run Cert.ReferenceIdeal.defs _ _).mono (fun _ h c => ⟨(h c).1.trans ?_, (h c).2⟩)
    (Cert.ReferenceIdeal.MatValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
